-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S16384x1 : Shape := ⟨2, ![16384, 1]⟩
abbrev S1x16384 : Shape := ⟨2, ![1, 16384]⟩
abbrev S1024x3 : Shape := ⟨2, ![1024, 3]⟩
abbrev S1024 : Shape := ⟨1, ![1024]⟩
abbrev S1024x1 : Shape := ⟨2, ![1024, 1]⟩
abbrev S3x1024 : Shape := ⟨2, ![3, 1024]⟩
abbrev S1024x1024 : Shape := ⟨2, ![1024, 1024]⟩
abbrev S1x1024 : Shape := ⟨2, ![1, 1024]⟩
abbrev S16384 : Shape := ⟨1, ![16384]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x1, .f32⟩
  | .hbm, ⟨3, _⟩ => ⟨S1x16384, .f32⟩
  | .hbm, ⟨4, _⟩ => ⟨S16384, .f32⟩
  | .hbm, ⟨5, _⟩ => ⟨S16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S16384x1, .f32⟩
  | .local _ .vmem, ⟨5, _⟩ => ⟨S1x16384, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c1024_i32 : BitVec 32 := 1024#32
  let v29 : BitVec 32 := Scalar.muli arg0 c1024_i32
  v29
def k0_mult2 (i : grid0.Coords) : BitVec 32 :=
  let arg1 : BitVec 32 := BitVec.ofNat 32 (i 1).val
  let c1024_i32_11 : BitVec 32 := 1024#32
  let v31 : BitVec 32 := Scalar.muli arg1 c1024_i32_11
  v31
def k0_off1 (i : grid0.Coords) : Fin 2 → Nat :=
  let arg0 : BitVec 32 := BitVec.ofNat 32 (i 0).val
  let c1024_i32 : BitVec 32 := 1024#32
  let v29 : BitVec 32 := Scalar.muli arg0 c1024_i32
  let v30 : BitVec 32 := v29
  let v33 : Index := Scalar.indexCast v30
  let c0_12 : Index := 0#32
  ![v33.toNat, 0]
def k0_off2 (i : grid0.Coords) : Fin 2 → Nat :=
  let c0_14 : Index := 0#32
  let arg1 : BitVec 32 := BitVec.ofNat 32 (i 1).val
  let c1024_i32_11 : BitVec 32 := 1024#32
  let v31 : BitVec 32 := Scalar.muli arg1 c1024_i32_11
  let v32 : BitVec 32 := v31
  let v39 : Index := Scalar.indexCast v32
  ![0, v39.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S16384x1_S16384x1_0_0 : ∀ a, (![0, 0] : Fin 2 → Nat) a + S16384x1.size a ≤ S16384x1.size a
  h_S16384x1 : 0 < S16384x1.numel
  inb_S1x16384_S1x16384_0_0 : ∀ a, (![0, 0] : Fin 2 → Nat) a + S1x16384.size a ≤ S1x16384.size a
  h_S1x16384 : 0 < S1x16384.numel
  inb_S1024x3_S1024x3_0_0 : ∀ a, (![0, 0] : Fin 2 → Nat) a + S1024x3.size a ≤ S1024x3.size a
  h_S1024x3 : 0 < S1024x3.numel
  reduces_S1024x3_S1024 : S1024x3.Reduces [1] S1024
  shapeCasts_S1024_S1024x1 : S1024.ShapeCasts S1024x1
  transposes_S1024x3_p1_0_S3x1024 : S1024x3.Transposes [1, 0] S3x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  shapeCasts_S16384x1_S16384 : S16384x1.ShapeCasts S16384
  shapeCasts_S1x16384_S16384 : S1x16384.ShapeCasts S16384
  reducesTo_S16384_S_d0 : S16384.ReducesTo [0] S_
  h_S_ : 0 < S_.numel
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x1.size a ≤ S16384x1.size a
  k0_off2_inb : ∀ i : grid0.Coords, ∀ a, (k0_off2 i) a + S1x1024.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x1.size a ≤ S16384x1.size a
  hwx0_2 : ∀ i : grid0.Coords, EltTy.bits .f32 = 32 ∨ (Rect.block (s := S16384x1) S16384x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16384x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x16384.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 37
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x3, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S3x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.IdealRun.lean ====
/-
  The kernel body as a program-logic triple, once per control case, at any float instance.

  The body runs at each of the 256 grid points (i, j) on four whole staging buffers: the x tile (1024 rows of 3),
  the y tile (1024 rows of 3), the forward accumulator (16384 x 1) and the backward accumulator (1 x 16384).
  At the first point (i = 0 and j = 0, the one branch of the body) both accumulators are overwritten whole with +inf;
  at every point rows [1024 i, 1024 i + 1024) of the forward accumulator are replaced by their minimum with the
  tile's row minima, and columns [1024 j, 1024 j + 1024) of the backward accumulator by their minimum with the
  tile's column minima.

  Case A (the first point): the accumulators may hold anything when the body starts; what each holds afterwards is
  a list of two stores (the whole +inf fill, then the slice), which together cover the buffer.
  Case B (every other point): the accumulators hold given contents; afterwards each holds those contents with ONE
  slice store written over them.  The stores are found by running the body; they are the witness of each triple.
-/
import proofs.«129235_j2241972929056_1_alg».proof.Proof.Gen.KernelIdeal.Frame
import proofs.«129235_j2241972929056_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, as the body computes it from the grid coordinates: i = 0 and j = 0. -/
abbrev cond (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other. -/
theorem hcond : ∀ t : Fin cfg0.N, cond (grid0.coords t) ↔ t.val = 0 :=
  (by decide +kernel : ∀ t : Fin grid0.N, cond (grid0.coords t) ↔ t.val = 0)

/-- Each window's current staging buffer at point `t`, and that it is a whole buffer. -/
abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16384x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16384 .f32 := win0_3.stage (cfg0.slots t 3)
abbrev hs3 (t : Fin cfg0.N) : (ms3 t).IsWhole := hstage0_3 ((cfg0.slots t 3).cast nbuf0_3)

set_option maxHeartbeats 1000000 in
/-- CASE A, the first point.  From the input tiles at `x0`, `x1` and the accumulators at anything, the body runs and
    hands back the inputs as they were and each accumulator with the stores `L2` (forward), `L3` (backward) written. -/
noncomputable def runA (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S16384x1 .f32) (harg4 : arg4.IsWhole) (arg5 : Memref sig .tc .vmem S1x16384 .f32) (harg5 : arg5.IsWhole) (hc0 : cond i)
    (x0 : Vec F S1024x3 .f32) (x1 : Vec F S1024x3 .f32) :
    Σ' (L2 : List (View.Piece (Elt F) S16384x1 .f32)), { L3 : List (View.Piece (Elt F) S1x16384 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- CASE B, any later point.  From the input tiles at `x0`, `x1` and the accumulators at `xo2`, `xo3`, the body runs and
    hands back the inputs as they were and each accumulator as it was with the stores `L2`, `L3` written over it. -/
noncomputable def runB (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S16384x1 .f32) (harg4 : arg4.IsWhole) (arg5 : Memref sig .tc .vmem S1x16384 .f32) (harg5 : arg5.IsWhole) (hc0 : ¬cond i)
    (x0 : Vec F S1024x3 .f32) (x1 : Vec F S1024x3 .f32) (xo2 : Vec F S16384x1 .f32) (xo3 : Vec F S1x16384 .f32) :
    Σ' (L2 : List (View.Piece (Elt F) S16384x1 .f32)), { L3 : List (View.Piece (Elt F) S1x16384 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (arg4.view.loc (c : Thread nD τ) ↦[arg4.view.set]{fullShare} arg4.view.writes (Elt F) (harg4.unread xo2) L2)
                ∗ (arg5.view.loc (c : Thread nD τ) ↦[arg5.view.set]{fullShare} arg5.view.writes (Elt F) (harg5.unread xo3) L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexact H2
    iexact H3

end Cert.KernelIdeal.Body

end
-- ==== Proof.IdealStep.lean ====
/-
  What one run of the kernel body leaves in the two accumulators, as functions of what they held before.

  Forward accumulator (16384 x 1): rows [1024 i, 1024 i + 1024) are replaced by the minimum of their old value and the
  tile's row minimum; every other row keeps its value (`stepF`).  Backward accumulator (1 x 16384): the same for columns
  [1024 j, 1024 j + 1024) and the tile's column minima (`stepG`).  At the first grid point the old value is the +inf fill
  the body has just stored.  The stores the runs found read back as these functions.
-/
import proofs.«129235_j2241972929056_1_alg».proof.Proof.IdealRun
import Idealize.ShloMosaic.Lib.WritesUnit
import Idealize.ShloMosaic.Lib.Pipeline.Value

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The forward accumulator after the body at coordinates `i`, from the input tiles and its contents `xo` before. -/
def stepF (i : grid0.Coords) (x0 x1 : Vec F S1024x3 .f32) (xo : Vec F S16384x1 .f32) : Vec F S16384x1 .f32 := fun y =>
  if h : ∀ a, k0_off1 i a ≤ (y a).val ∧ (y a).val < k0_off1 i a + S1024x1.size a then
    k0_pay6 x0 x1 (View.ld xo (Rect.unit (s := S16384x1) (k0_off1 i) S1024x1.size (k0_off1_inb i)))
      (Rect.unitLocal (s := S16384x1) (off := k0_off1 i) (size := S1024x1.size) y h)
  else xo y

/-- The backward accumulator after the body at coordinates `i`, from the input tiles and its contents `xo` before. -/
def stepG (i : grid0.Coords) (x0 x1 : Vec F S1024x3 .f32) (xo : Vec F S1x16384 .f32) : Vec F S1x16384 .f32 := fun y =>
  if h : ∀ a, k0_off2 i a ≤ (y a).val ∧ (y a).val < k0_off2 i a + S1x1024.size a then
    k0_pay1 (k0_pay5 x0 x1) (View.ld xo (Rect.unit (s := S1x16384) (k0_off2 i) S1x1024.size (k0_off2_inb i)))
      (Rect.unitLocal (s := S1x16384) (off := k0_off2 i) (size := S1x1024.size) y h)
  else xo y

/-- Case B, forward accumulator: the one slice store over the old contents reads back as `stepF`. -/
theorem readB2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S16384x1 .f32) (harg4 : arg4.IsWhole) (arg5 : Memref sig .tc .vmem S1x16384 .f32) (harg5 : arg5.IsWhole) (hc0 : ¬cond i)
    (x0 x1 : Vec F S1024x3 .f32) (xo2 : Vec F S16384x1 .f32) (xo3 : Vec F S1x16384 .f32) :
    arg4.view.read (Elt F) (arg4.view.writes (Elt F) (harg4.unread xo2) (runB c i arg2 harg2 arg3 harg3 arg4 harg4 arg5 harg5 hc0 x0 x1 xo2 xo3).1)
      = stepF i x0 x1 xo2 := by
  unfold runB
  dsimp only
  sl_unfold_run_names
  funext y
  rw [View.read_writes_cons_unit _ _ _ _ _ y rfl]
  unfold stepF
  simp only [View.writes_nil, View.readAt_eq_ld, harg2.read_unread, harg3.read_unread, harg4.read_unread,
    View.ld_unit_zero (S := S1024x3) hz2]

/-- Case B, backward accumulator. -/
theorem readB3 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S16384x1 .f32) (harg4 : arg4.IsWhole) (arg5 : Memref sig .tc .vmem S1x16384 .f32) (harg5 : arg5.IsWhole) (hc0 : ¬cond i)
    (x0 x1 : Vec F S1024x3 .f32) (xo2 : Vec F S16384x1 .f32) (xo3 : Vec F S1x16384 .f32) :
    arg5.view.read (Elt F) (arg5.view.writes (Elt F) (harg5.unread xo3) (runB c i arg2 harg2 arg3 harg3 arg4 harg4 arg5 harg5 hc0 x0 x1 xo2 xo3).2.1)
      = stepG i x0 x1 xo3 := by
  unfold runB
  dsimp only
  sl_unfold_run_names
  funext y
  rw [View.read_writes_cons_unit _ _ _ _ _ y rfl]
  unfold stepG
  simp only [View.writes_nil, View.readAt_eq_ld, harg2.read_unread, harg3.read_unread, harg5.read_unread,
    View.ld_unit_zero (S := S1024x3) hz2]

/-- Case A, forward accumulator: the +inf fill and the slice store over it, over whatever the buffer held, read back as
    `stepF` of the fill. -/
theorem readA2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S16384x1 .f32) (harg4 : arg4.IsWhole) (arg5 : Memref sig .tc .vmem S1x16384 .f32) (harg5 : arg5.IsWhole) (hc0 : cond i)
    (x0 x1 : Vec F S1024x3 .f32) (f : arg4.view.ty.Contents (Elt F)) :
    arg4.view.read (Elt F) (arg4.view.writes (Elt F) f (runA c i arg2 harg2 arg3 harg3 arg4 harg4 arg5 harg5 hc0 x0 x1).1)
      = stepF i x0 x1 (k0_pay2 (F := F)) := by
  unfold runA
  dsimp only
  sl_unfold_run_names
  have hw : ∀ g : arg4.view.ty.Contents (Elt F),
      arg4.view.read (Elt F) (arg4.view.writes (Elt F) g [⟨Rect.unit (s := S16384x1) ![0, 0] S16384x1.size inb_S16384x1_S16384x1_0_0, (k0_pay2 (F := F))⟩]) = k0_pay2 (F := F) := fun g => by
    rw [View.read_writes_eq_canon _ _ _ (fun y => ⟨_, List.mem_singleton_self _, View.mem_set_unit_zero hz2 inb_S16384x1_S16384x1_0_0 y⟩), View.canon_unit_zero hz2]
  funext y
  rw [View.read_writes_cons_unit _ _ _ _ _ y rfl]
  unfold stepF
  simp only [View.readAt_eq_ld, harg2.read_unread, harg3.read_unread, hw, View.ld_unit_zero (S := S1024x3) hz2]

/-- Case A, backward accumulator. -/
theorem readA3 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S16384x1 .f32) (harg4 : arg4.IsWhole) (arg5 : Memref sig .tc .vmem S1x16384 .f32) (harg5 : arg5.IsWhole) (hc0 : cond i)
    (x0 x1 : Vec F S1024x3 .f32) (f : arg5.view.ty.Contents (Elt F)) :
    arg5.view.read (Elt F) (arg5.view.writes (Elt F) f (runA c i arg2 harg2 arg3 harg3 arg4 harg4 arg5 harg5 hc0 x0 x1).2.1)
      = stepG i x0 x1 (k0_pay3 (F := F)) := by
  unfold runA
  dsimp only
  sl_unfold_run_names
  have hw : ∀ g : arg5.view.ty.Contents (Elt F),
      arg5.view.read (Elt F) (arg5.view.writes (Elt F) g [⟨Rect.unit (s := S1x16384) ![0, 0] S1x16384.size inb_S1x16384_S1x16384_0_0, (k0_pay3 (F := F))⟩]) = k0_pay3 (F := F) := fun g => by
    rw [View.read_writes_eq_canon _ _ _ (fun y => ⟨_, List.mem_singleton_self _, View.mem_set_unit_zero hz2 inb_S1x16384_S1x16384_0_0 y⟩), View.canon_unit_zero hz2]
  funext y
  rw [View.read_writes_cons_unit _ _ _ _ _ y rfl]
  unfold stepG
  simp only [View.readAt_eq_ld, harg2.read_unread, harg3.read_unread, hw, View.ld_unit_zero (S := S1024x3) hz2]

end Cert.KernelIdeal.Body

end
-- ==== Proof.IdealData.lean ====
/-
  The frame of the kernel's program: it terminates, faults nowhere, and leaves its argument arrays as they were, with the
  contents of the two accumulators after every grid point named.

  The accumulators after point n are defined by recursion on n: after the first point the step functions applied to the
  +inf fill, after point n + 1 the step functions applied to what point n left (`accs`).  Their staging buffers are
  written back to the result arrays only after the last point, so between points each buffer still holds what the point
  before left.  With these contents the body's two triples give the body obligation at every point, and the library's
  theorem for one pipelined region followed by host operations gives the run.
-/
import proofs.«129235_j2241972929056_1_alg».proof.Proof.IdealStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the forward and backward accumulators' staging buffers hold after the body at position `n`. -/
def accs (c : Dev nD) : (n : ℕ) → n < cfg0.N → Vec F S16384x1 .f32 × Vec F S1x16384 .f32
  | 0, hn => (stepF (grid0.coords ⟨0, hn⟩) (iblk m c 0 ⟨0, hn⟩) (iblk m c 1 ⟨0, hn⟩) (k0_pay2 (F := F)),
              stepG (grid0.coords ⟨0, hn⟩) (iblk m c 0 ⟨0, hn⟩) (iblk m c 1 ⟨0, hn⟩) (k0_pay3 (F := F)))
  | n + 1, hn => (stepF (grid0.coords ⟨n + 1, hn⟩) (iblk m c 0 ⟨n + 1, hn⟩) (iblk m c 1 ⟨n + 1, hn⟩) (accs c n (Nat.lt_of_succ_lt hn)).1,
                  stepG (grid0.coords ⟨n + 1, hn⟩) (iblk m c 0 ⟨n + 1, hn⟩) (iblk m c 1 ⟨n + 1, hn⟩) (accs c n (Nat.lt_of_succ_lt hn)).2)

/-- At the first point: the steps over the +inf fills. -/
theorem accs_first (c : Dev nD) (t : Fin cfg0.N) (h0 : t.val = 0) :
    accs m c t.val t.isLt = (stepF (grid0.coords t) (iblk m c 0 t) (iblk m c 1 t) (k0_pay2 (F := F)),
      stepG (grid0.coords t) (iblk m c 0 t) (iblk m c 1 t) (k0_pay3 (F := F))) := by
  obtain ⟨n, hn⟩ := t
  cases n with
  | zero => rfl
  | succ n => exact absurd h0 (Nat.succ_ne_zero n)

/-- At a later point: the steps over what the point before left. -/
theorem accs_later (c : Dev nD) (t : Fin cfg0.N) (h0 : t.val ≠ 0) :
    accs m c t.val t.isLt = (stepF (grid0.coords t) (iblk m c 0 t) (iblk m c 1 t) (accs m c (t.val - 1) (Nat.lt_of_le_of_lt (Nat.sub_le _ _) t.isLt)).1,
      stepG (grid0.coords t) (iblk m c 0 t) (iblk m c 1 t) (accs m c (t.val - 1) (Nat.lt_of_le_of_lt (Nat.sub_le _ _) t.isLt)).2) := by
  obtain ⟨n, hn⟩ := t
  cases n with
  | zero => exact absurd rfl h0
  | succ n => rfl

/-- The proof data of the pipeline on core `c`: the arrays as the region finds them; after the body at point `t` each input's
    buffer at its block and the accumulators' at `accs`; the standard invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (accs m c t.val t.isLt).1
    | ⟨3, _⟩ => (accs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (accs m c t.val t.isLt).1 := by dsimp only [dats]
theorem after3 (c : Dev nD) (t : Fin cfg0.N) : (dats m 0 c).after 3 t = (accs m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- After the first point each accumulator's buffer holds what the body left at the point before: it is written back
    only after the last point. -/
theorem before2 (c : Dev nD) (t : Fin cfg0.N) (h0 : t.val ≠ 0) (d) :
    (dats m 0 c).before 2 t d = (accs m c (t.val - 1) (Nat.lt_of_le_of_lt (Nat.sub_le _ _) t.isLt)).1 := by
  have hN : t.val < 256 := lt_of_lt_of_eq t.isLt (show cfg0.N = 256 from N_0)
  rw [Dat.before_out_kept _ 2 rfl t h0 (Bool.eq_false_iff.mpr fun h => by have := (flush0_2 _).mp h; dsimp only at this; omega)
    (fun _ => rfl) (fun _ _ => rfl)]
  dsimp only [dats]
theorem before3 (c : Dev nD) (t : Fin cfg0.N) (h0 : t.val ≠ 0) (d) :
    (dats m 0 c).before 3 t d = (accs m c (t.val - 1) (Nat.lt_of_le_of_lt (Nat.sub_le _ _) t.isLt)).2 := by
  have hN : t.val < 256 := lt_of_lt_of_eq t.isLt (show cfg0.N = 256 from N_0)
  rw [Dat.before_out_kept _ 3 rfl t h0 (Bool.eq_false_iff.mpr fun h => by have := (flush0_3 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the first point is case A, every other case B with the accumulators at what the point before
    left; the stores each run found read back as the step functions. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val = 0
  · rw [accs_first m c t h0]
    dsimp only
    iintro ⟨HΦ, Ho, ⟨%d0, H0⟩, ⟨%d1, H1⟩, ⟨%d2, H2⟩, ⟨%d3, H3⟩⟩
    iapply ((runA c (grid0.coords t) _ _ _ _ _ _ _ _ ((hcond t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact readA2 c _ _ _ _ _ _ _ _ _ _ _ _ _
    unfold owns; iexists _; isplitr
    swap; · iexact H3
    ipureintro; exact readA3 c _ _ _ _ _ _ _ _ _ _ _ _ _
  · rw [accs_later m c t h0]
    dsimp only
    simp only [before2 m c t h0, before3 m c t h0]
    iintro ⟨HΦ, Ho, ⟨%d0, H0⟩, ⟨%d1, H1⟩, ⟨%d2, H2⟩, ⟨%d3, H3⟩⟩
    iapply ((runB c (grid0.coords t) _ _ _ _ _ _ _ _ (fun h => h0 ((hcond t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact readB2 c _ _ _ _ _ _ _ _ _ _ _ _ _ _
    unfold owns; iexists _; isplitr
    swap; · iexact H3
    ipureintro; exact readB3 c _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and every final state has each array of the pipeline at what
    the proof data say, every buffer the later host operations write at their result, every other buffer as it was. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The mathematics both programs compute, over the extended reals.

  Two clouds of 16384 points in 3-space, X and Y.  The distance of point n of X and point m of Y is
  d(n, m) = sqrt (max ((|X n|^2 + |Y m|^2) - 2 <X n, Y m>) 0).  The forward distances are f(n) = min over m of d(n, m),
  the backward distances b(m) = min over n of d(n, m), each a minimum started from +inf.

  The kernel walks the 16 x 16 tiles of the 16384 x 16384 distance matrix in row-major order, 1024 x 1024 entries a tile,
  and keeps running minima.  After k tiles the forward accumulator at n is the minimum of d(n, m) over the m whose tile
  (n / 1024, m / 1024) is among the first k, and likewise the backward one: the invariants `InvF`, `InvG` below, stated
  by lower bounds (c is below the accumulator iff it is below every entry met so far), which is how a minimum is used.
-/
import Idealize.ShloMosaic.PureOps.Ideal
import Idealize.ShloMosaic.PureOps.Ideal.Laws
import Idealize.ShloMosaic.Lib.ValueIdx
import Mathlib.Data.Finset.Fold
import Mathlib.Data.EReal.Basic

noncomputable section

namespace Cert.Chamfer

open Idealize.ShloMosaic Idealize.ShloMosaic.ValueIdx

/-- A cloud of 16384 points with 3 coordinates each, as an array of extended reals. -/
abbrev Pts : Type := (⟨2, ![16384, 3]⟩ : Shape).Idx → EReal

/-- +inf, as the programs write it. -/
def pinf : EReal := Ideal.ofBits .f32 0x7F800000#32

theorem pinf_eq_top : pinf = ⊤ := by
  simp [pinf, Ideal.ofBits, Ideal.ieee]

/-- The squared norm of point `n`. -/
def sq (X : Pts) (n : Fin 16384) : EReal := ∑ k : Fin 3, X (ix2 n k) * X (ix2 n k)

/-- The inner product of point `n` of `X` and point `m` of `Y`. -/
def dot (X Y : Pts) (n m : Fin 16384) : EReal := ∑ k : Fin 3, X (ix2 n k) * Y (ix2 m k)

/-- The distance of point `n` of `X` and point `m` of `Y`, as both programs compute it. -/
def dist (X Y : Pts) (n m : Fin 16384) : EReal :=
  Ideal.sqrt (max ((sq X n + sq Y m) - Ideal.ofBits .f32 0x40000000#32 * dot X Y n m) (Ideal.ofBits .f32 0x00000000#32))

/-- The forward distance of point `n` of `X`: its distance to the nearest point of `Y`. -/
def fwd (X Y : Pts) (n : Fin 16384) : EReal := (Finset.univ : Finset (Fin 16384)).fold min pinf (fun m => dist X Y n m)

/-- The backward distance of point `m` of `Y`: its distance to the nearest point of `X`. -/
def bwd (X Y : Pts) (m : Fin 16384) : EReal := (Finset.univ : Finset (Fin 16384)).fold min pinf (fun n => dist X Y n m)

/-- A minimum started from +inf is bounded below exactly by the lower bounds of all its entries. -/
theorem le_fold_min_pinf {ι : Type} [Fintype ι] (f : ι → EReal) (c : EReal) :
    c ≤ (Finset.univ : Finset ι).fold min pinf f ↔ ∀ x, c ≤ f x := by
  rw [Finset.le_fold_min, pinf_eq_top]
  constructor
  · intro h x
    exact h.2 x (Finset.mem_univ x)
  · intro h
    exact ⟨le_top, fun x _ => h x⟩

/-- Two extended reals with the same lower bounds are equal. -/
theorem eq_of_forall_le_iff {a b : EReal} (h : ∀ c, c ≤ a ↔ c ≤ b) : a = b :=
  le_antisymm ((h a).mp le_rfl) ((h b).mpr le_rfl)

/-- The number, in row-major order over the 16 x 16 tiles, of the tile that holds entry (n, m). -/
def tileOf (n m : Fin 16384) : ℕ := (n.val / 1024) * 16 + m.val / 1024

/-- Every entry lies in one of the 256 tiles. -/
private theorem tileOf_lt_256 (n m : Fin 16384) : tileOf n m < 256 := by
  unfold tileOf
  have := n.isLt
  have := m.isLt
  omega

/-- The tiles numbered below `k + 1` are those numbered below `k` and tile `k` itself, which is the tile in
    tile-row `k / 16` and tile-column `k % 16`. -/
private theorem tileOf_lt_succ (n m : Fin 16384) (k : ℕ) :
    tileOf n m < k + 1 ↔ tileOf n m < k ∨ (n.val / 1024 = k / 16 ∧ m.val / 1024 = k % 16) := by
  unfold tileOf
  have := n.isLt
  have := m.isLt
  omega

/-- The forward accumulator `a` after the first `k` tiles of the matrix `D`. -/
def InvF (D : Fin 16384 → Fin 16384 → EReal) (k : ℕ) (a : Fin 16384 → EReal) : Prop :=
  ∀ n c, c ≤ a n ↔ ∀ m, tileOf n m < k → c ≤ D n m

/-- The backward accumulator `b` after the first `k` tiles of the matrix `D`. -/
def InvG (D : Fin 16384 → Fin 16384 → EReal) (k : ℕ) (b : Fin 16384 → EReal) : Prop :=
  ∀ m c, c ≤ b m ↔ ∀ n, tileOf n m < k → c ≤ D n m

theorem InvF_zero (D : Fin 16384 → Fin 16384 → EReal) : InvF D 0 (fun _ => pinf) := by
  intro n c
  constructor
  · intro _ m hm
    exact absurd hm (Nat.not_lt_zero _)
  · intro _
    show c ≤ pinf
    rw [pinf_eq_top]
    exact le_top

theorem InvG_zero (D : Fin 16384 → Fin 16384 → EReal) : InvG D 0 (fun _ => pinf) := by
  intro m c
  constructor
  · intro _ n hn
    exact absurd hn (Nat.not_lt_zero _)
  · intro _
    show c ≤ pinf
    rw [pinf_eq_top]
    exact le_top

/-- One tile more, forward: rows of tile-row `k / 16` take the minimum with the tile's row minimum, the others stay. -/
theorem InvF_step (D : Fin 16384 → Fin 16384 → EReal) (k : ℕ) (hk : k < 256) (a a' : Fin 16384 → EReal) (h : InvF D k a)
    (hin : ∀ (n : Fin 16384), n.val / 1024 = k / 16 →
      a' n = min (a n) ((Finset.univ : Finset (Fin 1024)).fold min pinf
        (fun q => D n ⟨1024 * (k % 16) + q.val, by have := q.isLt; omega⟩)))
    (hout : ∀ n : Fin 16384, n.val / 1024 ≠ k / 16 → a' n = a n) : InvF D (k + 1) a' := by
  intro n c
  by_cases hn : n.val / 1024 = k / 16
  · rw [hin n hn, le_min_iff, le_fold_min_pinf, h n c]
    constructor
    · rintro ⟨h1, h2⟩ m hm
      rcases (tileOf_lt_succ n m k).mp hm with h3 | ⟨_, h3⟩
      · exact h1 m h3
      · -- m lies in tile-column k % 16: it is 1024 * (k % 16) + m % 1024
        have key := h2 ⟨m.val % 1024, Nat.mod_lt _ (by norm_num)⟩
        have hm' : (⟨1024 * (k % 16) + m.val % 1024, by have := m.isLt; omega⟩ : Fin 16384) = m :=
          Fin.ext (by show 1024 * (k % 16) + m.val % 1024 = m.val; omega)
        rw [hm'] at key
        exact key
    · intro h1
      refine ⟨fun m hm => h1 m ((tileOf_lt_succ n m k).mpr (Or.inl hm)),
        fun q => h1 _ ((tileOf_lt_succ n _ k).mpr (Or.inr ⟨hn, ?_⟩))⟩
      show (1024 * (k % 16) + q.val) / 1024 = k % 16
      have := q.isLt
      omega
  · rw [hout n hn, h n c]
    constructor
    · intro h1 m hm
      rcases (tileOf_lt_succ n m k).mp hm with h3 | ⟨h3, _⟩
      · exact h1 m h3
      · exact absurd h3 hn
    · intro h1 m hm
      exact h1 m ((tileOf_lt_succ n m k).mpr (Or.inl hm))

/-- One tile more, backward: columns of tile-column `k % 16` take the minimum with the tile's column minimum. -/
theorem InvG_step (D : Fin 16384 → Fin 16384 → EReal) (k : ℕ) (hk : k < 256) (b b' : Fin 16384 → EReal) (h : InvG D k b)
    (hin : ∀ (m : Fin 16384), m.val / 1024 = k % 16 →
      b' m = min (b m) ((Finset.univ : Finset (Fin 1024)).fold min pinf
        (fun p => D ⟨1024 * (k / 16) + p.val, by have := p.isLt; omega⟩ m)))
    (hout : ∀ m : Fin 16384, m.val / 1024 ≠ k % 16 → b' m = b m) : InvG D (k + 1) b' := by
  intro m c
  by_cases hm : m.val / 1024 = k % 16
  · rw [hin m hm, le_min_iff, le_fold_min_pinf, h m c]
    constructor
    · rintro ⟨h1, h2⟩ n hn
      rcases (tileOf_lt_succ n m k).mp hn with h3 | ⟨h3, _⟩
      · exact h1 n h3
      · -- n lies in tile-row k / 16: it is 1024 * (k / 16) + n % 1024
        have key := h2 ⟨n.val % 1024, Nat.mod_lt _ (by norm_num)⟩
        have hn' : (⟨1024 * (k / 16) + n.val % 1024, by have := n.isLt; omega⟩ : Fin 16384) = n :=
          Fin.ext (by show 1024 * (k / 16) + n.val % 1024 = n.val; omega)
        rw [hn'] at key
        exact key
    · intro h1
      refine ⟨fun n hn => h1 n ((tileOf_lt_succ n m k).mpr (Or.inl hn)),
        fun p => h1 _ ((tileOf_lt_succ _ m k).mpr (Or.inr ⟨?_, hm⟩))⟩
      show (1024 * (k / 16) + p.val) / 1024 = k / 16
      have := p.isLt
      omega
  · rw [hout m hm, h m c]
    constructor
    · intro h1 n hn
      rcases (tileOf_lt_succ n m k).mp hn with h3 | ⟨_, h3⟩
      · exact h1 n h3
      · exact absurd h3 hm
    · intro h1 n hn
      exact h1 n ((tileOf_lt_succ n m k).mpr (Or.inl hn))

/-- After all 256 tiles the forward accumulator is the row minimum. -/
theorem InvF_final (D : Fin 16384 → Fin 16384 → EReal) (a : Fin 16384 → EReal) (h : InvF D 256 a) (n : Fin 16384) :
    a n = (Finset.univ : Finset (Fin 16384)).fold min pinf (fun m => D n m) := by
  apply eq_of_forall_le_iff
  intro c
  rw [h n c, le_fold_min_pinf]
  constructor
  · intro h1 m
    exact h1 m (tileOf_lt_256 n m)
  · intro h1 m _
    exact h1 m

/-- After all 256 tiles the backward accumulator is the column minimum. -/
theorem InvG_final (D : Fin 16384 → Fin 16384 → EReal) (b : Fin 16384 → EReal) (h : InvG D 256 b) (m : Fin 16384) :
    b m = (Finset.univ : Finset (Fin 16384)).fold min pinf (fun n => D n m) := by
  apply eq_of_forall_le_iff
  intro c
  rw [h m c, le_fold_min_pinf]
  constructor
  · intro h1 n
    exact h1 n (tileOf_lt_256 n m)
  · intro h1 n _
    exact h1 n

end Cert.Chamfer

end
-- ==== Proof.IdealTile.lean ====
/-
  The arithmetic of one grid point, read at an index over the extended reals: a tile of the distance matrix and its row
  and column minima folded into the old accumulator values.
-/
import proofs.«129235_j2241972929056_1_alg».proof.Proof.Spec
import proofs.«129235_j2241972929056_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Chamfer

/-- Entry (p, q) of the tile's distance matrix, from the x tile and the y tile. -/
def tileDist (x y : Vec Ideal S1024x3 .f32) (p q : Fin 1024) : EReal :=
  Ideal.sqrt (max ((∑ k : Fin 3, x (ix2 p k) * x (ix2 p k) + ∑ k : Fin 3, y (ix2 q k) * y (ix2 q k))
    - Ideal.ofBits .f32 0x40000000#32 * ∑ k : Fin 3, x (ix2 p k) * y (ix2 q k)) (Ideal.ofBits .f32 0x00000000#32))

/-! ## Layout operations at coordinates: the column forms -/

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two reductions over the three coordinates, and the product of the tiles -/

/-- The sum over the three coordinates of row `p` of a `[1024, 3]` tile. -/
theorem laneSum_apply (v : FVec Ideal S1024x3 .f32) (p : Fin 1024) :
    multiReduction (F := Ideal) .add [1] S1024 v 0x00000000#32 reduces_S1024x3_S1024 (.inl rfl) rfl (ix1 p)
      = ∑ k : Fin 3, v (ix2 p k) := by
  refine (Ideal.multiReduction_add_single v _ reduces_S1024x3_S1024 (.inl rfl) rfl (ix1 p)).trans ?_
  refine Finset.sum_congr rfl fun k _ => congrArg v ?_
  funext a
  match a with
  | ⟨0, _⟩ => rfl
  | ⟨1, _⟩ => rfl

/-- Operand indices of the tiles' product at output entry `j` and contraction index `k`, axis by axis: the left operand
    is read at row `j 0` … -/
theorem prod_lhs_0 (j : S1024x1024.Idx) (k : dot_S1024x3_S3x1024_S1024x1024_1_0_0_1_n_n.contr.Idx) :
    (dot_S1024x3_S3x1024_S1024x1024_1_0_0_1_n_n.lhsIdx j k 0).val = (j 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl
/-- … and column `k`; -/
theorem prod_lhs_1 (j : S1024x1024.Idx) (k : dot_S1024x3_S3x1024_S1024x1024_1_0_0_1_n_n.contr.Idx) :
    (dot_S1024x3_S3x1024_S1024x1024_1_0_0_1_n_n.lhsIdx j k 1).val = (k ⟨0, by decide⟩).val :=
  dot_S1024x3_S3x1024_S1024x1024_1_0_0_1_n_n.lhsIdx_val_of_single rfl j k
/-- the right operand at row `k` … -/
theorem prod_rhs_0 (j : S1024x1024.Idx) (k : dot_S1024x3_S3x1024_S1024x1024_1_0_0_1_n_n.contr.Idx) :
    (dot_S1024x3_S3x1024_S1024x1024_1_0_0_1_n_n.rhsIdx j k 0).val = (k ⟨0, by decide⟩).val :=
  dot_S1024x3_S3x1024_S1024x1024_1_0_0_1_n_n.rhsIdx_val_of_single rfl j k
/-- … and column `j 1`. -/
theorem prod_rhs_1 (j : S1024x1024.Idx) (k : dot_S1024x3_S3x1024_S1024x1024_1_0_0_1_n_n.contr.Idx) :
    (dot_S1024x3_S3x1024_S1024x1024_1_0_0_1_n_n.rhsIdx j k 1).val = (j 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

/-- The product of a `[1024, 3]` tile and a `[3, 1024]` tile into a zero accumulator, at entry `(p, q)`: the sum over
    the three coordinates of the products. -/
theorem prod_apply (x : FVec Ideal S1024x3 .f32) (w : FVec Ideal S3x1024 .f32) (p q : Fin 1024) :
    matmul dot_S1024x3_S3x1024_S1024x1024_1_0_0_1_n_n (some .fp32) x w (constant (F := Ideal) S1024x1024 .f32 0x00000000#32) (ix2 p q)
      = ∑ k : Fin 3, x (ix2 p k) * w (ix2 k q) := by
  simp only [matmul]
  rw [Ideal.matmul_constant_zero_apply,
    ← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 p q)
      ((contrEquiv1 dot_S1024x3_S3x1024_S1024x1024_1_0_0_1_n_n 3 rfl rfl).symm k) = ix2 p k :=
    funext fun a => Fin.ext (by
      match a with
      | ⟨0, _⟩ => exact prod_lhs_0 _ _
      | ⟨1, _⟩ => exact (prod_lhs_1 _ _).trans hk)
  have er : dot_S1024x3_S3x1024_S1024x1024_1_0_0_1_n_n.rhsIdx (ix2 p q)
      ((contrEquiv1 dot_S1024x3_S3x1024_S1024x1024_1_0_0_1_n_n 3 rfl rfl).symm k) = ix2 k q :=
    funext fun a => Fin.ext (by
      match a with
      | ⟨0, _⟩ => exact (prod_rhs_0 _ _).trans hk
      | ⟨1, _⟩ => exact prod_rhs_1 _ _)
  rw [el, er]

/-- The same product with the second tile given by rows and transposed: the inner products of row `p` of `x` and row `q` of `y`. -/
theorem prodT_apply (x y : FVec Ideal S1024x3 .f32) (p q : Fin 1024) :
    matmul dot_S1024x3_S3x1024_S1024x1024_1_0_0_1_n_n (some .fp32) x
        (transpose S3x1024 [1, 0] y transposes_S1024x3_p1_0_S3x1024) (constant (F := Ideal) S1024x1024 .f32 0x00000000#32) (ix2 p q)
      = ∑ k : Fin 3, x (ix2 p k) * y (ix2 q k) := by
  rw [prod_apply]
  exact Finset.sum_congr rfl fun k _ => by rw [transpose_ix2_apply]

/-- A square root at an index is the square root of the element. -/
theorem sqrt_apply {s : Shape} {φ : FTy} (v : FVec Ideal s φ) (i : s.Idx) : sqrt v i = Ideal.sqrt (v i) := rfl

/-- The body's distance tile at an index. -/
theorem pay4_apply (x y : Vec Ideal S1024x3 .f32) (p q : Fin 1024) :
    k0_pay4 (F := Ideal) x y (ix2 p q) = tileDist x y p q := by
  unfold k0_pay4 tileDist
  simp only [sqrt_apply, maximumf_apply, subf_apply, addf_apply, mulf_apply, broadcast_apply]
  rw [prodT_apply, broadcastTo_a1_ab_apply, shapeCast_a_a1_apply, laneSum_apply, broadcastTo_1b_ab_apply,
    transpose_ix2_apply, shapeCast_a_a1_apply, laneSum_apply]
  simp only [mulf_apply]
  rfl

/-! ## The tile's row and column minima -/

/-- The minimum over the columns of row `p` of a `[1024, 1024]` tile, started from +inf. -/
theorem rowMin_apply (v : FVec Ideal S1024x1024 .f32) (p : Fin 1024) :
    multiReduction (F := Ideal) .minimumf [1] S1024 v 0x7F800000#32 reduces_S1024x1024_S1024 (.inl rfl) rfl (ix1 p)
      = (Finset.univ : Finset (Fin 1024)).fold min pinf (fun q => v (ix2 p q)) := by
  refine (multiReduction_minimumf_eq_fold v _ reduces_S1024x1024_S1024 (.inl rfl) rfl (ix1 p)).trans ?_
  refine (reduces_S1024x1024_S1024.fold_filter_drop_single _ _ v (ix1 p)).trans ?_
  have e : (v ∘ reduces_S1024x1024_S1024.lift (ix1 p)) = fun q : Fin 1024 => v (ix2 p q) :=
    funext fun q => congrArg v (funext fun a => match a with | ⟨0, _⟩ => rfl | ⟨1, _⟩ => rfl)
  rw [e]
  rfl

/-- The minimum over the rows of column `q` of a `[1024, 1024]` tile, started from +inf. -/
theorem colMin_apply (v : FVec Ideal S1024x1024 .f32) (q : Fin 1024) :
    multiReduction (F := Ideal) .minimumf [0] S1024 v 0x7F800000#32 reduces_S1024x1024_S1024_2 (.inl rfl) rfl (ix1 q)
      = (Finset.univ : Finset (Fin 1024)).fold min pinf (fun p => v (ix2 p q)) := by
  refine (multiReduction_minimumf_eq_fold v _ reduces_S1024x1024_S1024_2 (.inl rfl) rfl (ix1 q)).trans ?_
  refine (reduces_S1024x1024_S1024_2.fold_filter_drop_single _ _ v (ix1 q)).trans ?_
  have e : (v ∘ reduces_S1024x1024_S1024_2.lift (ix1 q)) = fun p : Fin 1024 => v (ix2 p q) :=
    funext fun p => congrArg v (funext fun a => match a with | ⟨0, _⟩ => rfl | ⟨1, _⟩ => rfl)
  rw [e]
  rfl

/-- The forward store's payload at row `p`: the old value's minimum with the tile's row minimum. -/
theorem pay6_apply (x y : Vec Ideal S1024x3 .f32) (prev : Vec Ideal S1024x1 .f32) (p : Fin 1024) :
    k0_pay6 (F := Ideal) x y prev (ix2 p 0)
      = min (prev (ix2 p 0)) ((Finset.univ : Finset (Fin 1024)).fold min pinf (fun q => tileDist x y p q)) := by
  unfold k0_pay6
  simp only [minimumf_apply]
  rw [shapeCast_self, shapeCast_a_a1_apply, rowMin_apply]
  exact congrArg (fun f => min (prev (ix2 p 0)) ((Finset.univ : Finset (Fin 1024)).fold min pinf f))
    (funext fun q => pay4_apply x y p q)

/-- The backward store's payload at column `q`: the old value's minimum with the tile's column minimum. -/
theorem pay1_apply (x y : Vec Ideal S1024x3 .f32) (prev : Vec Ideal S1x1024 .f32) (q : Fin 1024) :
    k0_pay1 (F := Ideal) (k0_pay5 (F := Ideal) x y) prev (ix2 0 q)
      = min (prev (ix2 0 q)) ((Finset.univ : Finset (Fin 1024)).fold min pinf (fun p => tileDist x y p q)) := by
  unfold k0_pay1 k0_pay5
  simp only [minimumf_apply]
  rw [shapeCast_self, shapeCast_a_1a_apply, colMin_apply]
  exact congrArg (fun f => min (prev (ix2 0 q)) ((Finset.univ : Finset (Fin 1024)).fold min pinf f))
    (funext fun p => pay4_apply x y p q)

/-- The fills the first point stores are +inf everywhere. -/
theorem pay2_apply (y : S16384x1.Idx) : k0_pay2 (F := Ideal) y = pinf := by
  unfold k0_pay2 pinf
  rfl
theorem pay3_apply (y : S1x16384.Idx) : k0_pay3 (F := Ideal) y = pinf := by
  unfold k0_pay3 pinf
  rfl

end Cert.KernelIdeal.Tile

end
-- ==== Proof.IdealAt.lean ====
/-
  One grid point of the kernel's program, read at an index over the extended reals.

  The x tile at grid point t = 16 i + j is rows [1024 i, 1024 i + 1024) of X, the y tile rows [1024 j, 1024 j + 1024) of Y,
  so the tile's distance matrix is the (i, j) tile of the full one.  The step functions take, on the rows (columns) of the
  current tile, the minimum of the old accumulator and the tile's row (column) minimum, and keep every other entry.
-/
import proofs.«129235_j2241972929056_1_alg».proof.Proof.IdealData
import proofs.«129235_j2241972929056_1_alg».proof.Proof.IdealTile

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer Cert.KernelIdeal.Tile

variable (m : (ℓ : Loc nD τ sig) → Buf (Elt Ideal) ℓ) (ρ : Dev nD → PrngReg)

/-! ## Where the tiles and the slices sit -/

theorem off1_eq : ∀ t : Fin cfg0.N, k0_off1 (grid0.coords t) = ![1024 * (t.val / 16), 0] :=
  (by decide +kernel : ∀ t : Fin grid0.N, k0_off1 (grid0.coords t) = ![1024 * (t.val / 16), 0])

theorem off2_eq : ∀ t : Fin cfg0.N, k0_off2 (grid0.coords t) = ![0, 1024 * (t.val % 16)] :=
  (by decide +kernel : ∀ t : Fin grid0.N, k0_off2 (grid0.coords t) = ![0, 1024 * (t.val % 16)])

theorem idx0 : ∀ t : Fin cfg0.N, win0_0.index t 0 = t.val / 16 ∧ win0_0.index t 1 = 0 :=
  (by decide +kernel : ∀ t : Fin grid0.N, win0_0.index t 0 = t.val / 16 ∧ win0_0.index t 1 = 0)

theorem idx1 : ∀ t : Fin cfg0.N, win0_1.index t 0 = t.val % 16 ∧ win0_1.index t 1 = 0 :=
  (by decide +kernel : ∀ t : Fin grid0.N, win0_1.index t 0 = t.val % 16 ∧ win0_1.index t 1 = 0)

theorem tlt (t : Fin cfg0.N) : t.val < 256 := lt_of_lt_of_eq t.isLt (show cfg0.N = 256 from N_0)

/-- The first cloud and the second, as the program finds them on core `c`. -/
abbrev X (c : Dev nD) : Pts := m ((c : Thread nD τ).loc main_arg0)
abbrev Y (c : Dev nD) : Pts := m ((c : Thread nD τ).loc main_arg1)

/-- The x tile and the y tile at point `t`. -/
abbrev xb (c : Dev nD) (t : Fin cfg0.N) : Vec Ideal S1024x3 .f32 := iblk m c 0 t
abbrev yb (c : Dev nD) (t : Fin cfg0.N) : Vec Ideal S1024x3 .f32 := iblk m c 1 t

/-- Row `p` of the x tile at point `t` is row `1024 (t / 16) + p` of the first cloud. -/
theorem iblk0_apply (c : Dev nD) (t : Fin cfg0.N) (p : Fin 1024) (k : Fin 3) :
    xb m c t (ix2 p k)
      = X m c (ix2 ⟨1024 * (t.val / 16) + p.val, by have := tlt t; have := p.isLt; omega⟩ k) := by
  have hi := idx0 t
  unfold xb iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * p.val = 1024 * (t.val / 16) + p.val; rw [hi.1]; omega
  | ⟨1, _⟩ => show win0_0.index t 1 * 3 + 1 * k.val = k.val; rw [hi.2]; omega

/-- Row `q` of the y tile at point `t` is row `1024 (t % 16) + q` of the second cloud. -/
theorem iblk1_apply (c : Dev nD) (t : Fin cfg0.N) (q : Fin 1024) (k : Fin 3) :
    yb m c t (ix2 q k)
      = Y m c (ix2 ⟨1024 * (t.val % 16) + q.val, by have := q.isLt; omega⟩ k) := by
  have hi := idx1 t
  unfold yb iblk
  rw [View.read_apply]
  show m ((c : Thread nD τ).loc main_arg1) _ = m ((c : Thread nD τ).loc main_arg1) _
  congr 1
  funext a
  apply Fin.ext
  match a with
  | ⟨0, _⟩ => show win0_1.index t 0 * 1024 + 1 * q.val = 1024 * (t.val % 16) + q.val; rw [hi.1]; omega
  | ⟨1, _⟩ => show win0_1.index t 1 * 3 + 1 * k.val = k.val; rw [hi.2]; omega

/-- So the tile's distance matrix at point `t` is tile (t / 16, t % 16) of the whole distance matrix. -/
theorem tileDist_eq (c : Dev nD) (t : Fin cfg0.N) (p q : Fin 1024) :
    tileDist (xb m c t) (yb m c t) p q
      = Chamfer.dist (X m c) (Y m c) ⟨1024 * (t.val / 16) + p.val, by have := tlt t; have := p.isLt; omega⟩
          ⟨1024 * (t.val % 16) + q.val, by have := q.isLt; omega⟩ := by
  unfold tileDist Chamfer.dist Chamfer.sq Chamfer.dot
  simp only [iblk0_apply m c t, iblk1_apply m c t]

/-! ## One step, read at an index -/

/-- On the rows of the current tile the forward step takes the minimum with the tile's row minimum. -/
theorem stepF_in (t : Fin cfg0.N) (x0 x1 : Vec Ideal S1024x3 .f32) (xo : Vec Ideal S16384x1 .f32) (n : Fin 16384)
    (h : n.val / 1024 = t.val / 16) :
    stepF (grid0.coords t) x0 x1 xo (ix2 n 0)
      = min (xo (ix2 n 0)) ((Finset.univ : Finset (Fin 1024)).fold min pinf
          (fun q => tileDist x0 x1 ⟨n.val % 1024, Nat.mod_lt _ (by decide)⟩ q)) := by
  have hmem : ∀ a, k0_off1 (grid0.coords t) a ≤ ((ix2 n 0 : S16384x1.Idx) a).val
      ∧ ((ix2 n 0 : S16384x1.Idx) a).val < k0_off1 (grid0.coords t) a + S1024x1.size a := by
    rw [off1_eq t]
    intro a
    match a with
    | ⟨0, _⟩ => show 1024 * (t.val / 16) ≤ n.val ∧ n.val < 1024 * (t.val / 16) + 1024; omega
    | ⟨1, _⟩ => show 0 ≤ 0 ∧ 0 < 0 + 1; omega
  unfold stepF
  rw [dif_pos hmem]
  have hl : Rect.unitLocal (s := S16384x1) (off := k0_off1 (grid0.coords t)) (size := S1024x1.size) (ix2 n 0) hmem
      = (ix2 (⟨n.val % 1024, Nat.mod_lt _ (by decide)⟩ : Fin 1024) (0 : Fin 1) : S1024x1.Idx) := by
    funext a
    apply Fin.ext
    rw [Rect.unitLocal_val, off1_eq t]
    match a with
    | ⟨0, _⟩ => show n.val - 1024 * (t.val / 16) = n.val % 1024; omega
    | ⟨1, _⟩ => show 0 - 0 = 0; omega
  rw [hl, pay6_apply]
  congr 1
  show xo _ = xo _
  congr 1
  funext a
  apply Fin.ext
  rw [LoadRect.idx_apply]
  match a with
  | ⟨0, _⟩ =>
    show k0_off1 (grid0.coords t) 0 + 1 * (n.val % 1024) = n.val
    have e : k0_off1 (grid0.coords t) 0 = 1024 * (t.val / 16) := congrFun (off1_eq t) 0
    omega
  | ⟨1, _⟩ =>
    show k0_off1 (grid0.coords t) 1 + 1 * 0 = 0
    have e : k0_off1 (grid0.coords t) 1 = 0 := congrFun (off1_eq t) 1
    omega

/-- Off the rows of the current tile the forward step keeps the accumulator. -/
theorem stepF_out (t : Fin cfg0.N) (x0 x1 : Vec Ideal S1024x3 .f32) (xo : Vec Ideal S16384x1 .f32) (n : Fin 16384)
    (h : n.val / 1024 ≠ t.val / 16) :
    stepF (grid0.coords t) x0 x1 xo (ix2 n 0) = xo (ix2 n 0) := by
  unfold stepF
  rw [dif_neg]
  intro hmem
  have h0 := hmem (0 : Fin 2)
  rw [off1_eq t] at h0
  have h1 : 1024 * (t.val / 16) ≤ n.val ∧ n.val < 1024 * (t.val / 16) + 1024 := h0
  omega

/-- On the columns of the current tile the backward step takes the minimum with the tile's column minimum. -/
theorem stepG_in (t : Fin cfg0.N) (x0 x1 : Vec Ideal S1024x3 .f32) (xo : Vec Ideal S1x16384 .f32) (n : Fin 16384)
    (h : n.val / 1024 = t.val % 16) :
    stepG (grid0.coords t) x0 x1 xo (ix2 0 n)
      = min (xo (ix2 0 n)) ((Finset.univ : Finset (Fin 1024)).fold min pinf
          (fun p => tileDist x0 x1 p ⟨n.val % 1024, Nat.mod_lt _ (by decide)⟩)) := by
  have hmem : ∀ a, k0_off2 (grid0.coords t) a ≤ ((ix2 0 n : S1x16384.Idx) a).val
      ∧ ((ix2 0 n : S1x16384.Idx) a).val < k0_off2 (grid0.coords t) a + S1x1024.size a := by
    rw [off2_eq t]
    intro a
    match a with
    | ⟨0, _⟩ => show 0 ≤ 0 ∧ 0 < 0 + 1; omega
    | ⟨1, _⟩ => show 1024 * (t.val % 16) ≤ n.val ∧ n.val < 1024 * (t.val % 16) + 1024; omega
  unfold stepG
  rw [dif_pos hmem]
  have hl : Rect.unitLocal (s := S1x16384) (off := k0_off2 (grid0.coords t)) (size := S1x1024.size) (ix2 0 n) hmem
      = (ix2 (0 : Fin 1) (⟨n.val % 1024, Nat.mod_lt _ (by decide)⟩ : Fin 1024) : S1x1024.Idx) := by
    funext a
    apply Fin.ext
    rw [Rect.unitLocal_val, off2_eq t]
    match a with
    | ⟨0, _⟩ => show 0 - 0 = 0; omega
    | ⟨1, _⟩ => show n.val - 1024 * (t.val % 16) = n.val % 1024; omega
  rw [hl, pay1_apply]
  congr 1
  show xo _ = xo _
  congr 1
  funext a
  apply Fin.ext
  rw [LoadRect.idx_apply]
  match a with
  | ⟨0, _⟩ =>
    show k0_off2 (grid0.coords t) 0 + 1 * 0 = 0
    have e : k0_off2 (grid0.coords t) 0 = 0 := congrFun (off2_eq t) 0
    omega
  | ⟨1, _⟩ =>
    show k0_off2 (grid0.coords t) 1 + 1 * (n.val % 1024) = n.val
    have e : k0_off2 (grid0.coords t) 1 = 1024 * (t.val % 16) := congrFun (off2_eq t) 1
    omega

/-- Off the columns of the current tile the backward step keeps the accumulator. -/
theorem stepG_out (t : Fin cfg0.N) (x0 x1 : Vec Ideal S1024x3 .f32) (xo : Vec Ideal S1x16384 .f32) (n : Fin 16384)
    (h : n.val / 1024 ≠ t.val % 16) :
    stepG (grid0.coords t) x0 x1 xo (ix2 0 n) = xo (ix2 0 n) := by
  unfold stepG
  rw [dif_neg]
  intro hmem
  have h0 := hmem (1 : Fin 2)
  rw [off2_eq t] at h0
  have h1 : 1024 * (t.val % 16) ≤ n.val ∧ n.val < 1024 * (t.val % 16) + 1024 := h0
  omega

end Cert.KernelIdeal.Body

end
-- ==== Proof.IdealValue.lean ====
/-
  What the kernel's accumulators hold along the grid, over the extended reals.

  One step of the body is one step of the invariants of Spec.lean.  By induction on the point the accumulators after
  point k satisfy the invariants at k + 1; after the last point they are the row and column minima of the whole distance
  matrix: the forward and the backward distances.
-/
import proofs.«129235_j2241972929056_1_alg».proof.Proof.IdealAt

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer Cert.KernelIdeal.Tile

variable (m : (ℓ : Loc nD τ sig) → Buf (Elt Ideal) ℓ) (ρ : Dev nD → PrngReg)

/-! ## The invariants along the grid -/

/-- One forward step keeps the invariant. -/
theorem stepF_inv (c : Dev nD) (t : Fin cfg0.N) (xo : Vec Ideal S16384x1 .f32)
    (h : InvF (Chamfer.dist (X m c) (Y m c)) t.val (fun n => xo (ix2 n 0))) :
    InvF (Chamfer.dist (X m c) (Y m c)) (t.val + 1)
      (fun n => stepF (grid0.coords t) (xb m c t) (yb m c t) xo (ix2 n 0)) := by
  have hin : ∀ n : Fin 16384, n.val / 1024 = t.val / 16 →
      stepF (grid0.coords t) (xb m c t) (yb m c t) xo (ix2 n 0) = min (xo (ix2 n 0)) ((Finset.univ : Finset (Fin 1024)).fold min pinf
        (fun q => Chamfer.dist (X m c) (Y m c) n ⟨1024 * (t.val % 16) + q.val, by have := q.isLt; omega⟩)) := by
    intro n hn
    rw [stepF_in t (xb m c t) (yb m c t) xo n hn]
    have e : (fun q : Fin 1024 => tileDist (xb m c t) (yb m c t) ⟨n.val % 1024, Nat.mod_lt _ (by decide)⟩ q)
        = fun q : Fin 1024 => Chamfer.dist (X m c) (Y m c) n ⟨1024 * (t.val % 16) + q.val, by have := q.isLt; omega⟩ := by
      funext q
      rw [tileDist_eq m c t ⟨n.val % 1024, Nat.mod_lt _ (by decide)⟩ q]
      congr 1
      apply Fin.ext
      show 1024 * (t.val / 16) + n.val % 1024 = n.val
      omega
    rw [e]
  have hout : ∀ n : Fin 16384, n.val / 1024 ≠ t.val / 16 →
      stepF (grid0.coords t) (xb m c t) (yb m c t) xo (ix2 n 0) = xo (ix2 n 0) :=
    fun n hn => stepF_out t (xb m c t) (yb m c t) xo n hn
  exact InvF_step (Chamfer.dist (X m c) (Y m c)) t.val (tlt t) (fun n => xo (ix2 n 0))
    (fun n => stepF (grid0.coords t) (xb m c t) (yb m c t) xo (ix2 n 0)) h hin hout

/-- One backward step keeps the invariant. -/
theorem stepG_inv (c : Dev nD) (t : Fin cfg0.N) (xo : Vec Ideal S1x16384 .f32)
    (h : InvG (Chamfer.dist (X m c) (Y m c)) t.val (fun n => xo (ix2 0 n))) :
    InvG (Chamfer.dist (X m c) (Y m c)) (t.val + 1)
      (fun n => stepG (grid0.coords t) (xb m c t) (yb m c t) xo (ix2 0 n)) := by
  have hin : ∀ n : Fin 16384, n.val / 1024 = t.val % 16 →
      stepG (grid0.coords t) (xb m c t) (yb m c t) xo (ix2 0 n) = min (xo (ix2 0 n)) ((Finset.univ : Finset (Fin 1024)).fold min pinf
        (fun p => Chamfer.dist (X m c) (Y m c) ⟨1024 * (t.val / 16) + p.val, by have := tlt t; have := p.isLt; omega⟩ n)) := by
    intro n hn
    rw [stepG_in t (xb m c t) (yb m c t) xo n hn]
    have e : (fun p : Fin 1024 => tileDist (xb m c t) (yb m c t) p ⟨n.val % 1024, Nat.mod_lt _ (by decide)⟩)
        = fun p : Fin 1024 => Chamfer.dist (X m c) (Y m c) ⟨1024 * (t.val / 16) + p.val, by have := tlt t; have := p.isLt; omega⟩ n := by
      funext p
      rw [tileDist_eq m c t p ⟨n.val % 1024, Nat.mod_lt _ (by decide)⟩]
      congr 1
      apply Fin.ext
      show 1024 * (t.val % 16) + n.val % 1024 = n.val
      omega
    rw [e]
  have hout : ∀ n : Fin 16384, n.val / 1024 ≠ t.val % 16 →
      stepG (grid0.coords t) (xb m c t) (yb m c t) xo (ix2 0 n) = xo (ix2 0 n) :=
    fun n hn => stepG_out t (xb m c t) (yb m c t) xo n hn
  exact InvG_step (Chamfer.dist (X m c) (Y m c)) t.val (tlt t) (fun n => xo (ix2 0 n))
    (fun n => stepG (grid0.coords t) (xb m c t) (yb m c t) xo (ix2 0 n)) h hin hout

/-- After point `k` both accumulators satisfy their invariants at `k + 1`. -/
theorem accs_inv (c : Dev nD) : ∀ (k : ℕ) (hk : k < cfg0.N),
    InvF (Chamfer.dist (X m c) (Y m c)) (k + 1) (fun n => (accs m c k hk).1 (ix2 n 0))
    ∧ InvG (Chamfer.dist (X m c) (Y m c)) (k + 1) (fun n => (accs m c k hk).2 (ix2 0 n))
  | 0, hk => by
    constructor
    · exact stepF_inv m c ⟨0, hk⟩ (k0_pay2 (F := Ideal)) (by
        simp only [pay2_apply]; exact InvF_zero _)
    · exact stepG_inv m c ⟨0, hk⟩ (k0_pay3 (F := Ideal)) (by
        simp only [pay3_apply]; exact InvG_zero _)
  | k + 1, hk => by
    have ih := accs_inv c k (Nat.lt_of_succ_lt hk)
    constructor
    · exact stepF_inv m c ⟨k + 1, hk⟩ (accs m c k (Nat.lt_of_succ_lt hk)).1 ih.1
    · exact stepG_inv m c ⟨k + 1, hk⟩ (accs m c k (Nat.lt_of_succ_lt hk)).2 ih.2

theorem h255 : 255 < cfg0.N := by rw [show cfg0.N = 256 from N_0]; decide

/-- After the last point the forward accumulator holds the forward distances, -/
theorem accF_final (c : Dev nD) (n : Fin 16384) : (accs m c 255 h255).1 (ix2 n 0) = fwd (X m c) (Y m c) n :=
  InvF_final _ _ (accs_inv m c 255 h255).1 n

/-- and the backward accumulator the backward distances. -/
theorem accG_final (c : Dev nD) (n : Fin 16384) : (accs m c 255 h255).2 (ix2 0 n) = bwd (X m c) (Y m c) n :=
  InvG_final _ _ (accs_inv m c 255 h255).2 n

end Cert.KernelIdeal.Body

end
-- ==== Proof.IdealResult.lean ====
/-
  The result of the kernel's program over the extended reals: the two result arrays hold the forward and backward
  distances, and the host operations after the region turn them into the mean of each plus their sum.

  Each accumulator's staging buffer is written back once, after the last grid point, and its one block is the whole
  result array; so each result array ends at what the accumulator held after the last point.
-/
import proofs.«129235_j2241972929056_1_alg».proof.Proof.IdealValue
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer Cert.KernelIdeal.Tile

variable (m : (ℓ : Loc nD τ sig) → Buf (Elt Ideal) ℓ) (ρ : Dev nD → PrngReg)

/-- The last grid point. -/
abbrev tl : Fin cfg0.N := ⟨255, h255⟩

/-- What the forward and the backward result arrays end holding. -/
abbrev resF (c : Dev nD) : Buf (Elt Ideal) ((c : Thread nD τ).loc main_v0_0) := (accs m c 255 h255).1
abbrev resG (c : Dev nD) : Buf (Elt Ideal) ((c : Thread nD τ).loc main_v0_1) := (accs m c 255 h255).2

/-- The one write-back of the forward accumulator, at the last point, writes all of it. -/
theorem flushed2_eq (c : Dev nD) (t : Fin cfg0.N) (hf : (cfg0.win 2).flush t = true) :
    (dats m 0 c).flushed 2 t = ((cfg0.win 2).blk t).view.read (Elt Ideal) (resF m c) := by
  have h3 : t.val = 255 := by have := (flush0_2 t).mp hf; have := tlt t; omega
  obtain rfl : t = tl := Fin.ext h3
  show (cfg0.win 2).cut (grid0.coords tl) ((dats m 0 c).after 2 tl) = _
  rw [after2]
  have hz' : (fun a => win0_2.index tl a * main_v0_0.ty.shape.size a) = fun _ => 0 :=
    funext fun a => by fin_cases a <;> decide +kernel
  exact (Memref.read_access_unit_zero (Elt Ideal) main_v0_0 hz' (fun a => by rw [congrFun hz' a]; simp) (resF m c)).symm

theorem flushed3_eq (c : Dev nD) (t : Fin cfg0.N) (hf : (cfg0.win 3).flush t = true) :
    (dats m 0 c).flushed 3 t = ((cfg0.win 3).blk t).view.read (Elt Ideal) (resG m c) := by
  have h3 : t.val = 255 := by have := (flush0_3 t).mp hf; have := tlt t; omega
  obtain rfl : t = tl := Fin.ext h3
  show (cfg0.win 3).cut (grid0.coords tl) ((dats m 0 c).after 3 tl) = _
  rw [after3]
  have hz' : (fun a => win0_3.index tl a * main_v0_1.ty.shape.size a) = fun _ => 0 :=
    funext fun a => by fin_cases a <;> decide +kernel
  exact (Memref.read_access_unit_zero (Elt Ideal) main_v0_1 hz' (fun a => by rw [congrFun hz' a]; simp) (resG m c)).symm

/-- So the forward result array ends at the forward accumulator after the last point, -/
theorem final2 (c : Dev nD) : (dats m 0 c).arrAt 2 cfg0.N = resF m c :=
  (dats m 0 c).arrAt_eq_of_cover 2 (resF m c) (flushed2_eq m c) fun i =>
    ⟨tl, (flush0_2 tl).mpr (by decide), by
      show i ∈ ((View.whole main_v0_0).slice (win0_2.rect tl)).set
      rw [View.set_slice_whole, Rect.mem_set_unit]
      intro a
      have h0 : (i 0 : Nat) < 16384 := (i 0).isLt
      have h1 : (i 1 : Nat) < 1 := (i 1).isLt
      match a with
      | ⟨0, _⟩ =>
        show win0_2.index tl 0 * win0_2.size 0 ≤ (i 0 : Nat) ∧ (i 0 : Nat) < win0_2.index tl 0 * win0_2.size 0 + win0_2.xsize (grid0.coords tl) 0
        rw [show win0_2.index tl 0 * win0_2.size 0 = 0 from by decide +kernel, show win0_2.xsize (grid0.coords tl) 0 = 16384 from by decide +kernel]; omega
      | ⟨1, _⟩ =>
        show win0_2.index tl 1 * win0_2.size 1 ≤ (i 1 : Nat) ∧ (i 1 : Nat) < win0_2.index tl 1 * win0_2.size 1 + win0_2.xsize (grid0.coords tl) 1
        rw [show win0_2.index tl 1 * win0_2.size 1 = 0 from by decide +kernel, show win0_2.xsize (grid0.coords tl) 1 = 1 from by decide +kernel]; omega⟩

/-- and the backward result array at the backward accumulator after the last point. -/
theorem final3 (c : Dev nD) : (dats m 0 c).arrAt 3 cfg0.N = resG m c :=
  (dats m 0 c).arrAt_eq_of_cover 3 (resG m c) (flushed3_eq m c) fun i =>
    ⟨tl, (flush0_3 tl).mpr (by decide), by
      show i ∈ ((View.whole main_v0_1).slice (win0_3.rect tl)).set
      rw [View.set_slice_whole, Rect.mem_set_unit]
      intro a
      have h0 : (i 0 : Nat) < 1 := (i 0).isLt
      have h1 : (i 1 : Nat) < 16384 := (i 1).isLt
      match a with
      | ⟨0, _⟩ =>
        show win0_3.index tl 0 * win0_3.size 0 ≤ (i 0 : Nat) ∧ (i 0 : Nat) < win0_3.index tl 0 * win0_3.size 0 + win0_3.xsize (grid0.coords tl) 0
        rw [show win0_3.index tl 0 * win0_3.size 0 = 0 from by decide +kernel, show win0_3.xsize (grid0.coords tl) 0 = 1 from by decide +kernel]; omega
      | ⟨1, _⟩ =>
        show win0_3.index tl 1 * win0_3.size 1 ≤ (i 1 : Nat) ∧ (i 1 : Nat) < win0_3.index tl 1 * win0_3.size 1 + win0_3.xsize (grid0.coords tl) 1
        rw [show win0_3.index tl 1 * win0_3.size 1 = 0 from by decide +kernel, show win0_3.xsize (grid0.coords tl) 1 = 16384 from by decide +kernel]; omega⟩

/-- The host operations after the region: the mean of the forward distances plus the mean of the backward distances. -/
def loss (f b : FVec Ideal S16384 .f32) : FVec Ideal S_ .f32 :=
  addf
    (Host.divf (Host.reduceAdd f (constant (F := Ideal) S_ .f32 0x00000000#32) reducesTo_S16384_S_d0 h_S_) (constant (F := Ideal) S_ .f32 0x46800000#32))
    (Host.divf (Host.reduceAdd b (constant (F := Ideal) S_ .f32 0x00000000#32) reducesTo_S16384_S_d0 h_S_) (constant (F := Ideal) S_ .f32 0x46800000#32))

/-- The program's result buffer after the host operations. -/
theorem tail_eq (c : Dev nD) :
    Pipeline.afterTail₀ cfgs (dats m) 0 (V0 m) [hostOps1] c main_v7
      = loss (shapeCast S16384 (resF m c) shapeCasts_S16384x1_S16384) (shapeCast S16384 (resG m c) shapeCasts_S1x16384_S16384) := by
  unfold Pipeline.afterTail₀
  show StableHlo.after hostOps1 _ (Proc.devRef .tc main_v7) = _
  after_results
  have e2 : Pipeline.withArrays (cfgs 0).spec c (V0 m c) (fun w => (dats m 0 c).arrAt w (cfgs 0).N) (Proc.devRef .tc main_v0_0)
      = resF m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = resG m c := (Pipeline.withArrays_arr spec0 launch0.win.arr_inj c _ _ 3).trans (final3 m c)
  rw [e2, e3]
  rfl

/-- The forward result array, flattened, holds the forward distances, -/
theorem fwd_arr (c : Dev nD) :
    shapeCast S16384 (resF m c) shapeCasts_S16384x1_S16384 = fun j => fwd (X m c) (Y m c) (j 0) := by
  funext j
  have hk : ((⟨2, ![16384, 1]⟩ : Shape).rowMajor (ix2 (⟨(j 0).val, (j 0).isLt⟩ : Fin 16384) (0 : Fin 1))).val
      = ((⟨1, ![16384]⟩ : Shape).rowMajor j).val := by
    rw [Shape.rowMajor_val_two, Shape.rowMajor_val_one]
    show (j 0).val * 1 + 0 = (j 0).val
    omega
  rw [shapeCast_apply (resF m c) shapeCasts_S16384x1_S16384 j (ix2 (⟨(j 0).val, (j 0).isLt⟩ : Fin 16384) (0 : Fin 1)) hk]
  exact accF_final m c ⟨(j 0).val, (j 0).isLt⟩

/-- and the backward result array the backward distances. -/
theorem bwd_arr (c : Dev nD) :
    shapeCast S16384 (resG m c) shapeCasts_S1x16384_S16384 = fun j => bwd (X m c) (Y m c) (j 0) := by
  funext j
  have hk : ((⟨2, ![1, 16384]⟩ : Shape).rowMajor (ix2 (0 : Fin 1) (⟨(j 0).val, (j 0).isLt⟩ : Fin 16384))).val
      = ((⟨1, ![16384]⟩ : Shape).rowMajor j).val := by
    rw [Shape.rowMajor_val_two, Shape.rowMajor_val_one]
    show 0 * 16384 + (j 0).val = (j 0).val
    omega
  rw [shapeCast_apply (resG m c) shapeCasts_S1x16384_S16384 j (ix2 (0 : Fin 1) (⟨(j 0).val, (j 0).isLt⟩ : Fin 16384)) hk]
  exact accG_final m c ⟨(j 0).val, (j 0).isLt⟩

/-- The kernel's program runs, ends with its result at the mean of the forward distances plus the mean of the backward
    distances of its two arguments, and leaves the arguments unchanged. -/
theorem run : θ_run defs (onTc (τ := τ) (main (F := Ideal))) ⟨m, fun _ => 0, ρ⟩ fun r => ∀ c : Dev nD,
      r.2.mem ((c.tc : Thread nD τ).loc main_v7)
        = loss (fun j => fwd (X m c) (Y m c) (j 0)) (fun j => bwd (X m c) (Y m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 rfl (by decide))).trans
          ((tail_eq m c).trans (by rw [fwd_arr, bwd_arr])),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Body

end
-- ==== Proof.RefValue.lean ====
/-
  The reference program's result, read as the mathematics of Spec.lean: its distance matrix at an index is `dist`, its
  two minimum reductions are `fwd` and `bwd`, and its last stretch is the mean of each plus their sum (`loss`).
-/
import proofs.«129235_j2241972929056_1_alg».proof.Proof.Spec
import proofs.«129235_j2241972929056_1_alg».proof.Proof.Gen.ReferenceIdeal.Run
import proofs.«129235_j2241972929056_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx Cert.ReferenceIdeal Cert.ReferenceIdeal.Gen Cert.Chamfer

/-- The reference's distance matrix, as a function of its two argument arrays. -/
def refMat (X Y : Pts) : FVec Ideal S16384x16384 .f32 := Read.val_main_v17 (F := Ideal) X Y

/-- The distance matrix at entry (n, m) is the distance of point n of X and point m of Y: the row and column broadcasts read
    the squared norms at n and at m, the contraction reads the inner product, and the sums start from the zero word. -/
theorem refMat_apply (X Y : Pts) (n m : Fin 16384) : refMat X Y (ix2 n m) = Chamfer.dist X Y n m := by
  have e1 : ∀ k : Fin 3, Read.idx_main_v1 (Read.idx_main_v2 (Read.idx_main_v7 (ix2 n m))) k = ix2 n k := fun k =>
    funext fun a => Fin.ext (by match a with | ⟨0, _⟩ => rfl | ⟨1, _⟩ => rfl)
  have e2 : ∀ k : Fin 3, Read.idx_main_v4 (Read.idx_main_v5 (Read.idx_main_v6 (Read.idx_main_v8 (ix2 n m)))) k = ix2 m k := fun k =>
    funext fun a => Fin.ext (by match a with | ⟨0, _⟩ => rfl | ⟨1, _⟩ => rfl)
  have e3 : ∀ k : Fin 3, Read.lidx_main_v11 (ix2 n m) k = ix2 n k := fun k =>
    funext fun a => Fin.ext (by match a with | ⟨0, _⟩ => rfl | ⟨1, _⟩ => rfl)
  have e4 : ∀ k : Fin 3, Read.idx_main_v10 (Read.ridx_main_v11 (ix2 n m) k) = ix2 m k := fun k =>
    funext fun a => Fin.ext (by match a with | ⟨0, _⟩ => rfl | ⟨1, _⟩ => rfl)
  unfold refMat Chamfer.dist Chamfer.sq Chamfer.dot
  rw [Read.val_main_v17_apply, Read.val_main_v16_apply, Read.val_main_v14_apply, Read.val_main_v9_apply,
    Read.val_main_v7_apply, Read.val_main_v2_apply, Read.val_main_v1_apply,
    Read.val_main_v8_apply, Read.val_main_v6_apply, Read.val_main_v5_apply, Read.val_main_v4_apply,
    Read.val_main_v13_apply, Read.val_main_v12_apply, Read.val_main_v11_apply, Read.val_main_v15_apply]
  simp only [Read.val_main_v0_apply, Read.val_main_v3_apply, Read.val_main_v10_apply, Read.val_main_cst_apply,
    Read.val_main_cst_0_apply, Read.val_main_cst_1_apply, Read.val_main_cst_2_apply, e1, e2, e3, e4,
    Ideal.ofBits_def, Ideal.addf_def, Ideal.subf_def, Ideal.mulf_def, Ideal.maximumf_def, Ideal.hostUnary_sqrt_def,
    Ideal.ofBits_zero_f32, zero_add]

theorem reduces_d1 : S16384x16384.Reduces [1] S16384 := by decide
theorem reduces_d0 : S16384x16384.Reduces [0] S16384 := by decide

/-- Row n with column k inserted is entry (n, k). -/
theorem lift_d1 (n k : Fin 16384) : reduces_d1.lift (ix1 n) k = ix2 n k :=
  funext fun a => Fin.ext (by match a with | ⟨0, _⟩ => rfl | ⟨1, _⟩ => rfl)

/-- Column m with row k inserted is entry (k, m). -/
theorem lift_d0 (m k : Fin 16384) : reduces_d0.lift (ix1 m) k = ix2 k m :=
  funext fun a => Fin.ext (by match a with | ⟨0, _⟩ => rfl | ⟨1, _⟩ => rfl)

/-- The minimum over the second axis of the distance matrix, started from +inf, is the forward distance. -/
theorem min_d1 (X Y : Pts) :
    Host.reduce FloatOps.minimumf (refMat X Y) (constant (F := Ideal) S_ .f32 0x7F800000#32) reducesTo_S16384x16384_S16384_d1 h_S_
      = fun j => fwd X Y (j 0) := by
  funext j
  obtain ⟨n, rfl⟩ : ∃ n : Fin 16384, j = ix1 n := ⟨j 0, eq_ix1 j⟩
  refine (Host.reduce_eq_fold_single FloatOps.minimumf (refMat X Y) _ reducesTo_S16384x16384_S16384_d1 reduces_d1 h_S_ (ix1 n)).trans ?_
  show Finset.fold min pinf (fun k : Fin 16384 => refMat X Y (reduces_d1.lift (ix1 n) k)) Finset.univ = fwd X Y n
  unfold fwd
  refine Finset.fold_congr (fun k _ => ?_)
  rw [lift_d1, refMat_apply]

/-- The minimum over the first axis of the distance matrix, started from +inf, is the backward distance. -/
theorem min_d0 (X Y : Pts) :
    Host.reduce FloatOps.minimumf (refMat X Y) (constant (F := Ideal) S_ .f32 0x7F800000#32) reducesTo_S16384x16384_S16384_d0 h_S_
      = fun j => bwd X Y (j 0) := by
  funext j
  obtain ⟨m, rfl⟩ : ∃ m : Fin 16384, j = ix1 m := ⟨j 0, eq_ix1 j⟩
  refine (Host.reduce_eq_fold_single FloatOps.minimumf (refMat X Y) _ reducesTo_S16384x16384_S16384_d0 reduces_d0 h_S_ (ix1 m)).trans ?_
  show Finset.fold min pinf (fun k : Fin 16384 => refMat X Y (reduces_d0.lift (ix1 m) k)) Finset.univ = bwd X Y m
  unfold bwd
  refine Finset.fold_congr (fun k _ => ?_)
  rw [lift_d0, refMat_apply]

/-- The last stretch of both programs: the mean of the forward distances plus the mean of the backward distances. -/
def loss (f b : FVec Ideal S16384 .f32) : FVec Ideal S_ .f32 :=
  addf
    (Host.divf (Host.reduceAdd f (constant (F := Ideal) S_ .f32 0x00000000#32) reducesTo_S16384_S_d0 h_S_) (constant (F := Ideal) S_ .f32 0x46800000#32))
    (Host.divf (Host.reduceAdd b (constant (F := Ideal) S_ .f32 0x00000000#32) reducesTo_S16384_S_d0 h_S_) (constant (F := Ideal) S_ .f32 0x46800000#32))

/-- The reference's result is the last stretch applied to the two minimum reductions of its distance matrix. -/
theorem val24_eq_loss_red (X Y : Pts) :
    Read.val_main_v24 (F := Ideal) X Y
      = loss (Host.reduce FloatOps.minimumf (refMat X Y) (constant (F := Ideal) S_ .f32 0x7F800000#32) reducesTo_S16384x16384_S16384_d1 h_S_)
             (Host.reduce FloatOps.minimumf (refMat X Y) (constant (F := Ideal) S_ .f32 0x7F800000#32) reducesTo_S16384x16384_S16384_d0 h_S_) := rfl

/-- So it is the last stretch applied to the forward and backward distances. -/
theorem val24_eq_loss (X Y : Pts) :
    Read.val_main_v24 (F := Ideal) X Y = loss (fun j => fwd X Y (j 0)) (fun j => bwd X Y (j 0)) := by
  rw [val24_eq_loss_red, min_d1, min_d0]

/-- The reference runs, ends with its result at `loss` of the forward and backward distances of its two arguments, and
    leaves the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = loss (fun j => fwd (m ((c.tc : Thread nD τ).loc main_arg0)) (m ((c.tc : Thread nD τ).loc main_arg1)) (j 0))
               (fun j => bwd (m ((c.tc : Thread nD τ).loc main_arg0)) (m ((c.tc : Thread nD τ).loc main_arg1)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1.trans (Read.val_main_v24_eq (F := Ideal) (m ((c.tc : Thread nD τ).loc main_arg0))
          (m ((c.tc : Thread nD τ).loc main_arg1)))).trans (val24_eq_loss _ _), (h c).2⟩)
    (Cert.ReferenceIdeal.Value.run (F := Ideal) m ρ)

end Cert.ReferenceIdeal.RefValue

end
-- ==== Proof.lean ====
/-
  The kernel computes a tiled Chamfer distance: for two clouds X, Y of 16384 points in 3-space it walks the 16 x 16 tiles
  of the distance matrix d(n, m) = sqrt (max ((|X n|^2 + |Y m|^2) - 2 <X n, Y m>) 0), keeping for every n the running
  minimum over m (forward) and for every m the running minimum over n (backward), both started from +inf at the first
  tile; the host then takes the mean of each and adds them.  The reference builds the whole matrix, takes the two minima
  and the same two means.

  Over the extended reals both are the same function of X and Y: a minimum does not depend on the order or grouping in
  which its entries are met, and every other operation is applied to equal values in the same order on both sides.  No
  finiteness of the inputs is used.

  The three frames: the reference is a straight line of host operations; the kernel's program (at the word level and
  idealized alike) is one pipelined region whose body has two control cases, the first grid point, which fills both
  accumulators, and the rest; then eleven host operations.
-/
import proofs.«129235_j2241972929056_1_alg».proof.Defs
import proofs.«129235_j2241972929056_1_alg».proof.Proof.Gen.Kernel
import proofs.«129235_j2241972929056_1_alg».proof.Proof.Gen.KernelIdeal
import proofs.«129235_j2241972929056_1_alg».proof.Proof.Gen.ReferenceIdeal
import proofs.«129235_j2241972929056_1_alg».proof.Proof.Gen.Pre_finite_inputs
import proofs.«129235_j2241972929056_1_alg».proof.Proof.BitsData
import proofs.«129235_j2241972929056_1_alg».proof.Proof.IdealResult
import proofs.«129235_j2241972929056_1_alg».proof.Proof.RefValue

noncomputable section

namespace Cert.Proof

open Idealize.ShloMosaic Idealize.SL.Sem Cert.Chamfer

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.RefValue.run m ρ)

/-- The last stretch is the same function in both programs. -/
theorem loss_eq (f b : FVec Ideal Cert.KernelIdeal.S16384 .f32) :
    Cert.KernelIdeal.Body.loss f b = Cert.ReferenceIdeal.RefValue.loss f b := rfl

/-- Both programs end with the mean of the forward distances plus the mean of the backward distances of their arguments. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact (loss_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
